-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8192x512 .f32) (main_arg1 : FVec F S1024x512 .f32) (main_arg2 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S8192x512 : Shape := ⟨2, ![8192, 512]⟩
abbrev S1024x512 : Shape := ⟨2, ![1024, 512]⟩
abbrev S1024 : Shape := ⟨1, ![1024]⟩
abbrev S_ : Shape := ⟨0, ![]⟩
abbrev S1x1024 : Shape := ⟨2, ![1, 1024]⟩
abbrev S512x1024 : Shape := ⟨2, ![512, 1024]⟩
abbrev S8192x1024 : Shape := ⟨2, ![8192, 1024]⟩
abbrev S1024x1024 : Shape := ⟨2, ![1024, 1024]⟩
abbrev S1024x1 : Shape := ⟨2, ![1024, 1]⟩

abbrev nBuf : Space → Nat
  | .hbm => 15
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S512x1024, .f32⟩
  | .hbm, ⟨13, _⟩ => ⟨S512x1024, .bf16⟩
  | .hbm, ⟨14, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x512_S1024_d1 : S1024x512.ReducesTo [1] S1024
  h_S_ : 0 < S_.numel
  shapeCasts_S1024_S1x1024 : S1024.ShapeCasts S1x1024
  bcast_S_S1024 : S_.BroadcastsInDim S1024 (![] : Fin 0 → Fin S1024.rank)
  transposes_S1024x512_S512x1024_1_0 : S1024x512.Transposes [1, 0] S512x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x1024.size a
  hwx0_4 : ∀ i : grid0.Coords, EltTy.bits .f32 = 32 ∨ (Rect.block (s := S8192x1024) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S1024 : Shape := ⟨1, ![1024]⟩
abbrev S_ : Shape := ⟨0, ![]⟩
abbrev S8192 : Shape := ⟨1, ![8192]⟩
abbrev S8192x1 : Shape := ⟨2, ![8192, 1]⟩
abbrev S512x1024 : Shape := ⟨2, ![512, 1024]⟩
abbrev S8192x1024 : Shape := ⟨2, ![8192, 1024]⟩
abbrev S1x1024 : Shape := ⟨2, ![1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S512x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S1024x512_S1024_d1 : S1024x512.ReducesTo [1] S1024
  transposes_S1024x512_S512x1024_1_0 : S1024x512.Transposes [1, 0] S512x1024
  bcast_S_S8192x1024 : S_.BroadcastsInDim S8192x1024 (![] : Fin 0 → Fin S8192x1024.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x1024_S8192x1024_1_0_0_1_n_n_wf : DotDims.WF S8192x512 S512x1024 S8192x1024 [1] [0] [0] [1] [] []

variable [Facts₀]

def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf

class Facts : Prop extends Facts₀ where

variable [Facts]
-- ==== Proof.Gaussian.lean ====
/-
  The Gaussian radial basis function, stated once over whole arrays.

  For 8192 points x[b, ·] and 1024 centres c[o, ·] in dimension 512, and a log-width s[o] per centre, the value at
  (b, o) is  exp(−‖x_b − c_o‖² / σ_o²)  with σ_o = e^{s_o}.  The squared distance is taken in its expanded form and
  clipped at zero:  d(b, o) = max((‖x_b‖² − 2·⟨x_b, c_o⟩) + ‖c_o‖², 0).

  The exponent has two spellings, and this file shows they agree:
    −((√d / e^s) · (√d / e^s))     take the distance, divide by the width, square, negate;
    (0 − d) · e^{(−2)·s}            negate the squared distance, multiply by the inverse squared width.
  For a real d ≥ 0 and a real s these are one real number, since √d·√d = d and (1/e^s)·(1/e^s) = e^{−2s}. On the
  extended reals the identity does not hold in general (at s = −∞ the first divides by zero while the second
  multiplies by +∞), so the law is stated for arrays all of whose entries are real; under that hypothesis every
  partial sum, and so d itself, is real.
-/
import Idealize.ShloMosaic.PureOps.Ideal
import Idealize.ShloMosaic.PureOps.Ideal.Laws
import Idealize.ShloMosaic.Lib.ValueIdx

noncomputable section

namespace Cert.Gaussian

open Idealize.ShloMosaic Idealize.ShloMosaic.ValueIdx

/-- The points, [8192, 512]; the centres, [1024, 512]; the log-widths, [1024]; the result, [8192, 1024]. -/
abbrev Pts : Shape := ⟨2, ![8192, 512]⟩
abbrev Ctr : Shape := ⟨2, ![1024, 512]⟩
abbrev Wid : Shape := ⟨1, ![1024]⟩
abbrev Res : Shape := ⟨2, ![8192, 1024]⟩

/-- The two float literals of the formula, as the programs spell them: 2.0 and −2.0. -/
abbrev two : EReal := Ideal.ofBits .f32 0x40000000#32
abbrev negTwo : EReal := Ideal.ofBits .f32 0xC0000000#32

theorem two_eq : two = ((2 : ℝ) : EReal) := by
  simp [two, Ideal.ofBits, Ideal.ieee, -EReal.coe_mul]; norm_num

theorem negTwo_eq : negTwo = ((-2 : ℝ) : EReal) := by
  simp [negTwo, Ideal.ofBits, Ideal.ieee, -EReal.coe_mul]; norm_num

/-- ‖v_r‖², the sum of the squares along row r of a matrix with 512 columns. -/
def normSq {n : Nat} (v : (⟨2, ![n, 512]⟩ : Shape).Idx → EReal) (r : Fin n) : EReal :=
  ∑ k : Fin 512, v (ix2 r k) * v (ix2 r k)

/-- ⟨x_b, c_o⟩, row b of the points against row o of the centres. -/
def inner (x : Pts.Idx → EReal) (c : Ctr.Idx → EReal) (b : Fin 8192) (o : Fin 1024) : EReal :=
  ∑ k : Fin 512, x (ix2 b k) * c (ix2 o k)

/-- The expanded squared distance, clipped at zero. -/
def sqDist (x : Pts.Idx → EReal) (c : Ctr.Idx → EReal) (b : Fin 8192) (o : Fin 1024) : EReal :=
  max ((normSq x b - two * inner x c b o) + normSq c o) 0

/-- The basis function with the exponent spelt (0 − d)·e^{(−2)·s}. -/
def basis (x : Pts.Idx → EReal) (c : Ctr.Idx → EReal) (s : Wid.Idx → EReal) : Res.Idx → EReal := fun j =>
  Ideal.exp ((0 - sqDist x c (j 0) (j 1)) * Ideal.exp (negTwo * s (ix1 (j 1))))

/-- The basis function with the exponent spelt −((√d / e^s)·(√d / e^s)). -/
def basisViaDistance (x : Pts.Idx → EReal) (c : Ctr.Idx → EReal) (s : Wid.Idx → EReal) : Res.Idx → EReal := fun j =>
  Ideal.exp (-(Ideal.div (Ideal.sqrt (sqDist x c (j 0) (j 1))) (Ideal.exp (s (ix1 (j 1))))
    * Ideal.div (Ideal.sqrt (sqDist x c (j 0) (j 1))) (Ideal.exp (s (ix1 (j 1))))))

/-! ## Sums and maxima of reals stay real -/

theorem coe_sum {ι : Type} (t : Finset ι) (f : ι → ℝ) :
    ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- With real entries the clipped squared distance is a real number, and it is not negative. -/
theorem sqDist_real (x : Pts.Idx → EReal) (c : Ctr.Idx → EReal)
    (hx : ∀ i, ∃ r : ℝ, x i = r) (hc : ∀ i, ∃ r : ℝ, c i = r) (b : Fin 8192) (o : Fin 1024) :
    ∃ d : ℝ, 0 ≤ d ∧ sqDist x c b o = d := by
  choose x' hx' using hx
  choose c' hc' using hc
  refine ⟨max (((∑ k : Fin 512, x' (ix2 b k) * x' (ix2 b k)) - 2 * ∑ k : Fin 512, x' (ix2 b k) * c' (ix2 o k))
    + ∑ k : Fin 512, c' (ix2 o k) * c' (ix2 o k)) 0, le_max_right _ _, ?_⟩
  unfold sqDist normSq inner
  simp only [hx', hc', two_eq, ← EReal.coe_mul, coe_sum, ← EReal.coe_sub, ← EReal.coe_add]
  rw [← EReal.coe_zero, coe_max]

/-! ## The two spellings of the exponent agree on the reals -/

/-- For a real d ≥ 0 and a real s:  exp(−((√d / e^s)·(√d / e^s))) = exp((0 − d)·e^{(−2)·s}). -/
theorem exponent_law (d s : ℝ) (hd : 0 ≤ d) :
    Ideal.exp (-(Ideal.div (Ideal.sqrt (d : EReal)) (Ideal.exp (s : EReal))
        * Ideal.div (Ideal.sqrt (d : EReal)) (Ideal.exp (s : EReal))))
      = Ideal.exp ((0 - (d : EReal)) * Ideal.exp (negTwo * (s : EReal))) := by
  have hs : Real.exp s ≠ 0 := Real.exp_ne_zero s
  rw [Ideal.sqrt_coe, if_neg (not_lt.mpr hd), Ideal.exp_coe, Ideal.div_coe hs, negTwo_eq,
    ← EReal.coe_mul, ← EReal.coe_mul, ← EReal.coe_neg, Ideal.exp_coe, ← EReal.coe_mul, Ideal.exp_coe,
    ← EReal.coe_zero, ← EReal.coe_sub, ← EReal.coe_mul, Ideal.exp_coe]
  congr 2
  have e2 : Real.exp (-2 * s) = (Real.exp s)⁻¹ * (Real.exp s)⁻¹ := by
    rw [show -2 * s = -s + -s by ring, Real.exp_add, Real.exp_neg]
  rw [e2, one_div]
  have hq : Real.sqrt d * Real.sqrt d = d := Real.mul_self_sqrt hd
  calc -(Real.sqrt d * (Real.exp s)⁻¹ * (Real.sqrt d * (Real.exp s)⁻¹))
      = -((Real.sqrt d * Real.sqrt d) * ((Real.exp s)⁻¹ * (Real.exp s)⁻¹)) := by ring
    _ = (0 - d) * ((Real.exp s)⁻¹ * (Real.exp s)⁻¹) := by rw [hq]; ring

/-- On arrays of reals the two spellings are one function. -/
theorem basisViaDistance_eq_basis (x : Pts.Idx → EReal) (c : Ctr.Idx → EReal) (s : Wid.Idx → EReal)
    (hx : ∀ i, ∃ r : ℝ, x i = r) (hc : ∀ i, ∃ r : ℝ, c i = r) (hs : ∀ i, ∃ r : ℝ, s i = r) :
    basisViaDistance x c s = basis x c s := by
  funext j
  obtain ⟨d, hd, ed⟩ := sqDist_real x c hx hc (j 0) (j 1)
  obtain ⟨w, ew⟩ := hs (ix1 (j 1))
  unfold basisViaDistance basis
  rw [ed, ew]
  exact exponent_law d w hd

end Cert.Gaussian

end
-- ==== Proof.RealInputs.lean ====
/-
  What the precondition says: every entry of the three argument arrays is a real number.

  The precondition is the conjunction, over the three arrays, of "every entry satisfies |a| < +∞". On the extended
  reals |a| is max a (−a), and max a (−a) < +∞ excludes both a = +∞ and a = −∞ (whose negation is +∞), which leaves
  exactly the reals. The "for every entry" is a reduction by `and` of the entrywise comparisons into a single bit,
  so that bit being 1 gives each comparison.
-/
import proofs.«124500_j23922967839461_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.RealInputs

open Idealize.ShloMosaic

/-- An extended real whose absolute value is below +∞ is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- Under the precondition each of the three arrays holds reals only. -/
theorem of_pre [Cert.Pre_finite_inputs.Facts]
    (a0 : FVec Ideal Cert.Pre_finite_inputs.S8192x512 .f32) (a1 : FVec Ideal Cert.Pre_finite_inputs.S1024x512 .f32)
    (a2 : FVec Ideal Cert.Pre_finite_inputs.S1024 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [Cert.Pre_finite_inputs.fn] at h0
  obtain ⟨h01, hw⟩ := IntOp.andi_eq_one.1 h0
  obtain ⟨hp, hc⟩ := IntOp.andi_eq_one.1 h01
  exact ⟨fun i => real_of_abs_lt_top _ (Host.reduce_andi_all _ _ _ _ _ hp i),
    fun i => real_of_abs_lt_top _ (Host.reduce_andi_all _ _ _ _ _ hc i),
    fun i => real_of_abs_lt_top _ (Host.reduce_andi_all _ _ _ _ _ hw i)⟩

end Cert.RealInputs

end
-- ==== Proof.RefBasis.lean ====
/-
  The reference computes the Gaussian basis function in its via-the-distance spelling.

  Read one operation at a time and at one index (b, o): the row sums of squares ‖x_b‖² and ‖c_o‖² are sums over the 512
  coordinates started from zero; the product of the points with the transposed centres at (b, o) is the sum over k of
  x[b, k]·c[o, k]; the broadcasts only repeat a row value along the columns or a column value along the rows; and the
  rest is pointwise: clip at zero, take the root, divide by e^{s_o}, square, negate, exponentiate.
-/
import proofs.«124500_j23922967839461_1_alg».proof.Proof.Gen.ReferenceIdeal.Read
import proofs.«124500_j23922967839461_1_alg».proof.Proof.Gaussian

noncomputable section

namespace Cert.RefBasis

open Cert.ReferenceIdeal Cert.ReferenceIdeal.Read Idealize.ShloMosaic Idealize.ShloMosaic.ValueIdx Cert.Gaussian

/-- The reference's result, as a function of the three argument arrays, is `basisViaDistance`. -/
theorem stage_eq (x : Pts.Idx → EReal) (c : Ctr.Idx → EReal) (s : Wid.Idx → EReal) :
    val_main_v23 (F := Ideal) x c s = basisViaDistance x c s := by
  funext j
  have ex : ∀ k : Fin 512, idx_main_v1 (idx_main_v2 (idx_main_v9 j)) k = ix2 (j 0) k := fun k =>
    funext fun a => Fin.ext (by match a with | ⟨0, _⟩ => rfl | ⟨1, _⟩ => rfl)
  have el : ∀ k : Fin 512, lidx_main_v6 j k = ix2 (j 0) k := fun k =>
    funext fun a => Fin.ext (by match a with | ⟨0, _⟩ => rfl | ⟨1, _⟩ => rfl)
  have er : ∀ k : Fin 512, idx_main_v5 (ridx_main_v6 j k) = ix2 (j 1) k := fun k =>
    funext fun a => Fin.ext (by match a with | ⟨0, _⟩ => rfl | ⟨1, _⟩ => rfl)
  have ec : ∀ k : Fin 512, idx_main_v4 (idx_main_v11 (idx_main_v12 j)) k = ix2 (j 1) k := fun k =>
    funext fun a => Fin.ext (by match a with | ⟨0, _⟩ => rfl | ⟨1, _⟩ => rfl)
  have es : idx_main_v18 (idx_main_v19 j) = ix1 (j 1) :=
    funext fun a => Fin.ext (by match a with | ⟨0, _⟩ => rfl)
  simp only [val_main_v23_apply, val_main_v22_apply, val_main_v21_apply, val_main_v20_apply, val_main_v19_apply,
    val_main_v18_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply,
    val_main_v3_apply, val_main_v2_apply, val_main_v1_apply, val_main_v0_apply, val_main_cst_apply,
    val_main_cst_0_apply, val_main_cst_1_apply, val_main_cst_2_apply]
  simp only [ex, el, er, ec, es, Ideal.hostUnary_exp_def, Ideal.hostUnary_sqrt_def, Ideal.hostDivf_def,
    Ideal.hostNegf_def, Ideal.negf_def, Ideal.mulf_def, Ideal.subf_def, Ideal.addf_def, Ideal.maximumf_def,
    Ideal.ofBits_def, Ideal.ofBits_zero_f32, zero_add]
  rfl

end Cert.RefBasis

end
-- ==== Proof.KernelPayload.lean ====
/-
  One row block of the kernel, read at one entry.

  The body works on 1024 points at a time. From the block X of those points, the whole transposed centres Cᵀ [512, 1024],
  the row ‖c_o‖² and the row e^{(−2)·s_o}, it stores, at (p, q),

      exp( (0 − max((Σ_k X[p,k]² − 2·Σ_k X[p,k]·Cᵀ[k,q]) + csq[q], 0)) · inv[q] ).

  Three of its operations are not entrywise and are read here one at a time: the sum of a row's squares, kept as a
  one-column matrix and then repeated along the columns; the matrix product into a zero accumulator, which at (p, q) is
  the sum over the contracted coordinate; and a one-row matrix repeated down the rows. Rounding to the narrower float
  format before the product is the identity on extended reals.
-/
import proofs.«124500_j23922967839461_1_alg».proof.Proof.Gen.KernelIdeal.Skeleton
import proofs.«124500_j23922967839461_1_alg».proof.Proof.Gaussian
import Idealize.ShloMosaic.Lib.Pipeline.Value
import Idealize.ShloMosaic.Lib.ValueIdx
import Idealize.ShloMosaic.Lib.ValueLayout
import Idealize.ShloMosaic.PureOps.Ideal.Laws

noncomputable section

namespace Cert.KernelPayload

open Cert.KernelIdeal Cert.KernelIdeal.Gen Idealize.ShloMosaic Idealize.ShloMosaic.ValueIdx Cert.Gaussian

/-! ## A row sum kept as a column, then repeated along the columns -/

/-- Summing a [1024, 512] matrix along its rows, keeping the result as a [1024, 1] column and repeating that column
    1024 times, gives at (p, q) the sum of row p, whatever q. -/
theorem rowSum_column_repeated (v : FVec Ideal S1024x512 .f32) (hr : S1024x512.Reduces [1] S1024)
    (hφ : FKind.Formats .f32) (hacc : (0x00000000#32 : BitVec 32) = FKind.add.neutral .f32 hφ)
    (hc : S1024.ShapeCasts S1024x1) (hb : S1024x1.Broadcasts S1024x1024) (p q : Fin 1024) :
    broadcastTo S1024x1024 (shapeCast S1024x1 (multiReduction .add [1] S1024 v 0x00000000#32 hr hφ hacc) hc) hb (ix2 p q)
      = ∑ k : Fin 512, v (ix2 p k) := by
  refine (broadcastTo_apply _ hb (ix2 p q) (ix2 p (0 : Fin 1)) (fun a => ?_)).trans ?_
  · match a with
    | ⟨0, _⟩ => show p.val = if (1024 : Nat) = 1 then 0 else p.val; rw [if_neg (by decide)]
    | ⟨1, _⟩ => show 0 = if (1 : Nat) = 1 then 0 else q.val; rw [if_pos rfl]
  refine (shapeCast_apply _ hc (ix2 p (0 : Fin 1)) (ix1 p) ?_).trans ?_
  · rw [Shape.rowMajor_val_one, Shape.rowMajor_val_two]
    show p.val = p.val * 1 + 0
    omega
  refine (Ideal.multiReduction_add_single v 0x00000000#32 hr hφ hacc (ix1 p)).trans ?_
  refine Finset.sum_congr rfl fun k _ => congrArg v (funext fun a => Fin.ext ?_)
  match a with
  | ⟨0, _⟩ => rfl
  | ⟨1, _⟩ => rfl

/-! ## The matrix product at an entry -/

theorem lhs_axis0 (i : S1024x1024.Idx) (z : dot_S1024x512_S512x1024_S1024x1024_1_0_0_1_n_n.contr.Idx) :
    (dot_S1024x512_S512x1024_S1024x1024_1_0_0_1_n_n.lhsIdx i z 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_axis1 (i : S1024x1024.Idx) (z : dot_S1024x512_S512x1024_S1024x1024_1_0_0_1_n_n.contr.Idx) :
    (dot_S1024x512_S512x1024_S1024x1024_1_0_0_1_n_n.lhsIdx i z 1).val = (z ⟨0, by decide⟩).val :=
  dot_S1024x512_S512x1024_S1024x1024_1_0_0_1_n_n.lhsIdx_val_of_single rfl i z
theorem rhs_axis0 (i : S1024x1024.Idx) (z : dot_S1024x512_S512x1024_S1024x1024_1_0_0_1_n_n.contr.Idx) :
    (dot_S1024x512_S512x1024_S1024x1024_1_0_0_1_n_n.rhsIdx i z 0).val = (z ⟨0, by decide⟩).val :=
  dot_S1024x512_S512x1024_S1024x1024_1_0_0_1_n_n.rhsIdx_val_of_single rfl i z
theorem rhs_axis1 (i : S1024x1024.Idx) (z : dot_S1024x512_S512x1024_S1024x1024_1_0_0_1_n_n.contr.Idx) :
    (dot_S1024x512_S512x1024_S1024x1024_1_0_0_1_n_n.rhsIdx i z 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a [1024, 512] block with a [512, 1024] matrix into a zero accumulator is, at (p, q), the sum over the
    512 contracted coordinates of the row entry times the column entry. -/
theorem product_apply (l : FVec Ideal S1024x512 .bf16) (r : FVec Ideal S512x1024 .bf16) (p q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-! ## The stored value at an entry -/

/-- What the body stores at (p, q), from the block of points `X`, the transposed centres `Ct`, the row of centre
    norms `csq` and the row of inverse squared widths `inv`. -/
theorem stored_apply (X : FVec Ideal S1024x512 .f32) (Ct : FVec Ideal S512x1024 .bf16) (csq inv : FVec Ideal S1x1024 .f32)
    (p q : Fin 1024) :
    k0_pay1 (F := Ideal) X Ct csq inv (ix2 p q)
      = Ideal.exp ((0 - max (((∑ k : Fin 512, X (ix2 p k) * X (ix2 p k)) - two * ∑ k : Fin 512, X (ix2 p k) * Ct (ix2 k q))
          + csq (ix2 (0 : Fin 1) q)) 0) * inv (ix2 (0 : Fin 1) q)) := by
  unfold k0_pay1
  dsimp only
  have eCt : shapeCast S512x1024 Ct shapeCasts_S512x1024_S512x1024 = Ct := shapeCast_self _ _
  have eRow : ∀ v : FVec Ideal S1x1024 .f32,
      broadcastTo S1024x1024 (shapeCast S1x1024 v shapeCasts_S1x1024_S1x1024) broadcasts_S1x1024_S1024x1024 (ix2 p q)
        = v (ix2 (0 : Fin 1) q) := fun v =>
    (broadcastTo_1b_ab_apply _ broadcasts_S1x1024_S1024x1024 p q).trans (congrFun (shapeCast_self v _) _)
  refine congrArg Ideal.exp ?_
  refine congrArg₂ (· * ·) ?_ (eRow inv)
  refine congrArg₂ (· - ·) Ideal.ofBits_zero_f32 ?_
  refine congrArg₂ max ?_ Ideal.ofBits_zero_f32
  refine congrArg₂ (· + ·) ?_ (eRow csq)
  refine congrArg₂ (· - ·) ?_ (congrArg₂ (· * ·) rfl ?_)
  · exact rowSum_column_repeated (mulf X X) _ _ _ _ _ p q
  · rw [eCt]
    exact product_apply (truncf .bf16 X bitsLt_bf16_f32) Ct p q

end Cert.KernelPayload

end
-- ==== Proof.KernelBasis.lean ====
/-
  The kernel's result array is the Gaussian basis function of its three arguments.

  Before the grid runs, the host prepares three arrays from the centres c and the log-widths s: the transposed centres
  Cᵀ[k, o] = c[o, k]; the row of squared norms csq[o] = 0 + Σ_k c[o, k]²; and the row inv[o] = e^{(−2)·s_o}. The grid
  has eight points. Point t reads the block of points 1024·t … 1024·t + 1023 and all of Cᵀ, csq and inv, and writes
  rows 1024·t … 1024·t + 1023 of the result, every column. So what point t writes at local (p, q) is the basis
  function at (1024·t + p, q); the eight row blocks are disjoint and together are the whole result.
-/
import proofs.«124500_j23922967839461_1_alg».proof.Proof.Gen.KernelIdeal.Value
import proofs.«124500_j23922967839461_1_alg».proof.Proof.KernelPayload
import Idealize.ShloMosaic.Lib.StableHlo.Run
import Idealize.ShloMosaic.PureOps.Ideal
import Idealize.ShloMosaic.PureOps.Ideal.Laws

noncomputable section

namespace Cert.KernelBasis

open Cert.KernelIdeal Cert.KernelIdeal.Gen Idealize.ShloMosaic Idealize.ShloMosaic.TcCoe Idealize.SL.Sem
open Idealize.ShloMosaic.ValueIdx Cert.Gaussian
open Idealize.ShloMosaic.Pipeline (Dat)

variable (m : (ℓ : Loc nD τ sig) → Buf (Elt Ideal) ℓ) (ρ : Dev nD → PrngReg)

/-- The three arguments as core `c` holds them at launch: points, centres, log-widths. -/
abbrev pts (c : Dev nD) : Pts.Idx → EReal := m ((c : Thread nD τ).loc main_arg0)
abbrev ctr (c : Dev nD) : Ctr.Idx → EReal := m ((c : Thread nD τ).loc main_arg1)
abbrev wid (c : Dev nD) : Wid.Idx → EReal := m ((c : Thread nD τ).loc main_arg2)

/-! ## What the host prepares, read at one entry -/

/-- The three arrays the host prepares, as the grid finds them, at their literal shapes. -/
abbrev ctArr (c : Dev nD) : FVec Ideal S512x1024 .bf16 := V m c main_v8
abbrev csqArr (c : Dev nD) : FVec Ideal S1x1024 .f32 := V m c main_v2
abbrev invArr (c : Dev nD) : FVec Ideal S1x1024 .f32 := V m c main_v6

/-- The transposed centres: entry (k, o) is c[o, k] (narrowing the float format changes nothing here). -/
theorem centresT_apply (c : Dev nD) (k : Fin 512) (o : Fin 1024) :
    ctArr m c (ix2 k o) = ctr m c (ix2 o k) := by
  have e : ctArr m c
      = truncf (F := Ideal) .bf16 (transpose S512x1024 [1, 0] (m ((c : Thread nD τ).loc main_arg1)) transposes_S1024x512_S512x1024_1_0) bitsLt_bf16_f32 := by
    show V m c main_v8 = _
    dsimp only [V, hostOps0]; after_results
  rw [e]
  exact transpose_ix2_apply _ transposes_S1024x512_S512x1024_1_0 k o

/-- The row of squared norms: entry o is ‖c_o‖². -/
theorem centreNorms_apply (c : Dev nD) (o : Fin 1024) :
    csqArr m c (ix2 (0 : Fin 1) o) = normSq (ctr m c) o := by
  have e : csqArr m c
      = shapeCast S1x1024 (Host.reduceAdd (F := Ideal) (mulf (m ((c : Thread nD τ).loc main_arg1)) (m ((c : Thread nD τ).loc main_arg1)))
          (constant (F := Ideal) S_ .f32 0x00000000#32) reducesTo_S1024x512_S1024_d1 h_S_) shapeCasts_S1024_S1x1024 := by
    show V m c main_v2 = _
    dsimp only [V, hostOps0]; after_results; rfl
  rw [e]
  refine (shapeCast_a_1a_apply _ shapeCasts_S1024_S1x1024 (0 : Fin 1) o).trans ?_
  simp only [Host.reduceAdd, Ideal.hostReduceAdd_def]
  rw [Ideal.hostReduceAdd_single reducesTo_S1024x512_S1024_d1 (by decide)]
  unfold normSq
  have h0 : (constant (F := Ideal) S_ .f32 0x00000000#32 (Shape.Idx.first h_S_) : EReal) = 0 := Ideal.ofBits_zero_f32
  rw [h0, zero_add]
  refine Finset.sum_congr rfl fun k _ => ?_
  exact congrArg (fun i : Ctr.Idx => ctr m c i * ctr m c i)
    (funext fun a => Fin.ext (by match a with | ⟨0, _⟩ => rfl | ⟨1, _⟩ => rfl) : _ = (ix2 o k : Ctr.Idx))

/-- The row of inverse squared widths: entry o is e^{(−2)·s_o}. -/
theorem invWidths_apply (c : Dev nD) (o : Fin 1024) :
    invArr m c (ix2 (0 : Fin 1) o) = Ideal.exp (negTwo * wid m c (ix1 o)) := by
  have e : invArr m c
      = shapeCast S1x1024 (Host.exp (F := Ideal) (mulf (broadcastInDim S1024 ![] bcast_S_S1024 (constant (F := Ideal) S_ .f32 0xC0000000#32))
          (m ((c : Thread nD τ).loc main_arg2)))) shapeCasts_S1024_S1x1024 := by
    show V m c main_v6 = _
    dsimp only [V, hostOps0]; after_results; rfl
  rw [e]
  refine (shapeCast_a_1a_apply _ shapeCasts_S1024_S1x1024 (0 : Fin 1) o).trans ?_
  have eb : broadcastInDim S1024 ![] bcast_S_S1024 (constant (F := Ideal) S_ .f32 0xC0000000#32) (ix1 o) = negTwo :=
    broadcastInDim_apply _ bcast_S_S1024 _ (ix1 o) ix0 (fun a => a.elim0)
  exact congrArg (fun z => Ideal.exp (z * wid m c (ix1 o))) eb

/-! ## The grid's index maps, decided over its eight points -/

/-- The block of points moves with the output's row block; the other three inputs are read whole at every point; the
    output has one column block and eight row blocks. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 7 :=
  (by decide +kernel : ∀ t : Fin grid0.N, _)

/-- Every one of the eight row blocks is some point's. -/
theorem idx_onto : ∀ r : Fin 8, ∃ t : Fin cfg0.N, win0_4.index t = ![r.val, 0] :=
  (by decide +kernel : ∀ r : Fin 8, ∃ t : Fin grid0.N, win0_4.index t = ![r.val, 0])

/-! ## The blocks a point reads, at one entry -/

/-- The four input blocks at point `t`, at their literal shapes. -/
abbrev ptsBlk (c : Dev nD) (t : Fin cfg0.N) : FVec Ideal S1024x512 .f32 := iblk m c 0 t
abbrev ctBlk (c : Dev nD) (t : Fin cfg0.N) : FVec Ideal S512x1024 .bf16 := iblk m c 1 t
abbrev csqBlk (c : Dev nD) (t : Fin cfg0.N) : FVec Ideal S1x1024 .f32 := iblk m c 2 t
abbrev invBlk (c : Dev nD) (t : Fin cfg0.N) : FVec Ideal S1x1024 .f32 := iblk m c 3 t

/-- Local row p of the block of points at `t` is row b = 1024·(row block of t) + p of the points. -/
theorem ptsBlk_apply (c : Dev nD) (t : Fin cfg0.N) (p : Fin 1024) (k : Fin 512) (b : Fin 8192)
    (hb : b.val = win0_4.index t (0 : Fin 2) * 1024 + p.val) :
    ptsBlk m c t (ix2 p k) = pts m c (ix2 b k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = b.val; omega
  | ⟨1, _⟩ => show win0_0.index t (1 : Fin 2) * 512 + 1 * k.val = k.val; omega

/-- The transposed centres are read whole at every point. -/
theorem ctBlk_apply (c : Dev nD) (t : Fin cfg0.N) (k : Fin 512) (o : Fin 1024) :
    ctBlk m c t (ix2 k o) = ctr m c (ix2 o k) := by
  obtain ⟨-, -, e0, e1, -⟩ := idx_facts t
  show ctArr m c (((cfg0.win 1).blk t).view.emb (ix2 k o)) = _
  refine Eq.trans (congrArg (ctArr m c) (funext fun a => Fin.ext ?_)) (centresT_apply m c k o)
  match a with
  | ⟨0, _⟩ => show win0_1.index t (0 : Fin 2) * 512 + 1 * k.val = k.val; omega
  | ⟨1, _⟩ => show win0_1.index t (1 : Fin 2) * 1024 + 1 * o.val = o.val; omega

/-- So is the row of squared norms. -/
theorem csqBlk_apply (c : Dev nD) (t : Fin cfg0.N) (o : Fin 1024) :
    csqBlk m c t (ix2 (0 : Fin 1) o) = normSq (ctr m c) o := by
  obtain ⟨-, -, -, -, e0, e1, -⟩ := idx_facts t
  show csqArr m c (((cfg0.win 2).blk t).view.emb (ix2 (0 : Fin 1) o)) = _
  refine Eq.trans (congrArg (csqArr m c) (funext fun a => Fin.ext ?_)) (centreNorms_apply m c o)
  match a with
  | ⟨0, _⟩ => show win0_2.index t (0 : Fin 2) * 1 + 1 * 0 = 0; omega
  | ⟨1, _⟩ => show win0_2.index t (1 : Fin 2) * 1024 + 1 * o.val = o.val; omega

/-- And the row of inverse squared widths. -/
theorem invBlk_apply (c : Dev nD) (t : Fin cfg0.N) (o : Fin 1024) :
    invBlk m c t (ix2 (0 : Fin 1) o) = Ideal.exp (negTwo * wid m c (ix1 o)) := by
  obtain ⟨-, -, -, -, -, -, e0, e1, -⟩ := idx_facts t
  show invArr m c (((cfg0.win 3).blk t).view.emb (ix2 (0 : Fin 1) o)) = _
  refine Eq.trans (congrArg (invArr m c) (funext fun a => Fin.ext ?_)) (invWidths_apply m c o)
  match a with
  | ⟨0, _⟩ => show win0_3.index t (0 : Fin 2) * 1 + 1 * 0 = 0; omega
  | ⟨1, _⟩ => show win0_3.index t (1 : Fin 2) * 1024 + 1 * o.val = o.val; omega

/-! ## What a point writes -/

/-- At local (p, q) point `t` stores the basis function at (b, q), b the global row of p. -/
theorem block_entry (c : Dev nD) (t : Fin cfg0.N) (p q : Fin 1024) (b : Fin 8192)
    (hb : b.val = win0_4.index t (0 : Fin 2) * 1024 + p.val) :
    k0_pay1 (F := Ideal) (ptsBlk m c t) (ctBlk m c t) (csqBlk m c t) (invBlk m c t) (ix2 p q)
      = Ideal.exp ((0 - sqDist (pts m c) (ctr m c) b q) * Ideal.exp (negTwo * wid m c (ix1 q))) := by
  refine (Cert.KernelPayload.stored_apply (ptsBlk m c t) (ctBlk m c t) (csqBlk m c t) (invBlk m c t) p q).trans ?_
  have hX : ∀ k : Fin 512, ptsBlk m c t (ix2 p k) = pts m c (ix2 b k) := fun k => ptsBlk_apply m c t p k b hb
  have hC : ∀ k : Fin 512, ctBlk m c t (ix2 k q) = ctr m c (ix2 q k) := fun k => ctBlk_apply m c t k q
  rw [csqBlk_apply m c t q, invBlk_apply m c t q]
  unfold sqDist normSq Cert.Gaussian.inner
  simp only [hX, hC]

theorem hz : (![0, 0] : Fin 2 → Nat) = fun _ => 0 := funext fun a => by fin_cases a <;> rfl

/-- What point `t` writes back is its block of the basis function of the arguments. -/
theorem flushed_eq (c : Dev nD) (t : Fin cfg0.N) :
    (dats m 0 c).flushed 4 t = ((cfg0.win 4).blk t).view.read (Elt Ideal) (basis (pts m c) (ctr m c) (wid m c)) := by
  rw [Cert.KernelIdeal.Value.flushed4]
  unfold out0_4
  rw [View.canon_unit_zero hz]
  simp only [View.ld_unit_zero (S := S1024x512) hz, View.ld_unit_zero (S := S512x1024) hz, View.ld_unit_zero (S := S1x1024) hz]
  funext j
  obtain ⟨p, q, rfl⟩ : ∃ (p q : Fin 1024), j = ix2 p q := ⟨j 0, j 1, eq_ix2 j⟩
  obtain ⟨-, -, -, -, -, -, -, -, e41, e40⟩ := idx_facts t
  have hp := p.isLt
  have hbound : win0_4.index t (0 : Fin 2) * 1024 + p.val < 8192 := by omega
  show k0_pay1 (F := Ideal) (ptsBlk m c t) (ctBlk m c t) (csqBlk m c t) (invBlk m c t) (ix2 p q)
    = basis (pts m c) (ctr m c) (wid m c) (((cfg0.win 4).blk t).view.emb (ix2 p q))
  have ei : ((cfg0.win 4).blk t).view.emb (ix2 p q)
      = (ix2 (⟨win0_4.index t (0 : Fin 2) * 1024 + p.val, hbound⟩ : Fin 8192) q : Res.Idx) := funext fun a => Fin.ext (by
    match a with
    | ⟨0, _⟩ => show win0_4.index t (0 : Fin 2) * 1024 + 1 * p.val = win0_4.index t (0 : Fin 2) * 1024 + p.val; omega
    | ⟨1, _⟩ => show win0_4.index t (1 : Fin 2) * 1024 + 1 * q.val = q.val; omega)
  rw [ei]
  exact block_entry m c t p q ⟨win0_4.index t (0 : Fin 2) * 1024 + p.val, hbound⟩ rfl

/-! ## The eight row blocks are the whole result -/

/-- An index lies in point `t`'s block iff each coordinate lies in the block's range on its axis. -/
theorem mem_blk (t : Fin cfg0.N) (i : S8192x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v9).slice (win0_4.rect t)).set ↔ _
  rw [View.set_slice_whole, Rect.mem_set_unit]
  exact Iff.rfl

/-- Row r of the result lies in the block of the point whose row block is r / 1024. -/
theorem cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := idx_onto ⟨(i 0).val / 1024, by omega⟩
  have q0 : win0_4.index t (0 : Fin 2) = (i 0).val / 1024 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- After the run the result array is the basis function of the three arguments. -/
theorem final (c : Dev nD) : (dats m 0 c).arrAt 4 cfg0.N = basis (pts m c) (ctr m c) (wid m c) :=
  (dats m 0 c).arrAt_eq_of_cover 4 (basis (pts m c) (ctr m c) (wid m c)) (fun t _ => flushed_eq m c t) cover

/-- The kernel's run: it terminates without a fault, the result is the basis function, the arguments are unchanged. -/
theorem run : θ_run defs (onTc (τ := τ) (main (F := Ideal))) ⟨m, fun _ => 0, ρ⟩ fun r => ∀ c : Dev nD,
      r.2.mem ((c : Thread nD τ).loc main_v9) = basis (pts m c) (ctr m c) (wid m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelBasis

end
-- ==== Proof.lean ====
/-
  A Gaussian radial basis layer: for 8192 points x_b and 1024 centres c_o in dimension 512 with log-widths s_o,
  out[b, o] = exp(−‖x_b − c_o‖² / σ_o²), σ_o = e^{s_o}, with the squared distance in its expanded form clipped at zero,
  max((‖x_b‖² − 2·⟨x_b, c_o⟩) + ‖c_o‖², 0).

  The kernel computes it 1024 points at a time from the transposed centres, the centre norms and e^{(−2)·s_o}, with
  the exponent spelt (0 − d)·e^{(−2)·s}; the reference computes the whole array with the exponent spelt
  −((√d / e^s)·(√d / e^s)). On the extended reals the two agree because under the precondition every input is a real
  number, so d is a real number ≥ 0, √d·√d = d and (1/e^s)² = e^{−2s}. Sums are taken in different orders and
  groupings on the two sides, which does not matter for sums of reals; narrowing to a shorter float format before the
  matrix product is the identity at this level.

  The three run claims come from the programs' generated runs. Nothing was rewritten when the kernel was idealized, so
  that conjunct is trivially true. The value claim: the kernel's result array is the basis function of the arguments
  (row block by row block, the eight blocks covering the result), the reference's is the same function in the other
  spelling, and the two spellings agree on real inputs.
-/
import proofs.«124500_j23922967839461_1_alg».proof.Defs
import proofs.«124500_j23922967839461_1_alg».proof.Proof.Gen.Kernel
import proofs.«124500_j23922967839461_1_alg».proof.Proof.Gen.Kernel.Skeleton
import proofs.«124500_j23922967839461_1_alg».proof.Proof.Gen.Kernel.Launch
import proofs.«124500_j23922967839461_1_alg».proof.Proof.Gen.Kernel.Points
import proofs.«124500_j23922967839461_1_alg».proof.Proof.Gen.Kernel.Frame
import proofs.«124500_j23922967839461_1_alg».proof.Proof.Gen.KernelIdeal
import proofs.«124500_j23922967839461_1_alg».proof.Proof.Gen.KernelIdeal.Skeleton
import proofs.«124500_j23922967839461_1_alg».proof.Proof.Gen.KernelIdeal.Launch
import proofs.«124500_j23922967839461_1_alg».proof.Proof.Gen.KernelIdeal.Points
import proofs.«124500_j23922967839461_1_alg».proof.Proof.Gen.KernelIdeal.Frame
import proofs.«124500_j23922967839461_1_alg».proof.Proof.Gen.ReferenceIdeal
import proofs.«124500_j23922967839461_1_alg».proof.Proof.Gen.Pre_finite_inputs
import proofs.«124500_j23922967839461_1_alg».proof.Proof.Gen.KernelIdeal.Value
import proofs.«124500_j23922967839461_1_alg».proof.Proof.Gen.ReferenceIdeal.Run
import proofs.«124500_j23922967839461_1_alg».proof.Proof.Gen.ReferenceIdeal.Read
import proofs.«124500_j23922967839461_1_alg».proof.Proof.Gaussian
import proofs.«124500_j23922967839461_1_alg».proof.Proof.RealInputs
import proofs.«124500_j23922967839461_1_alg».proof.Proof.RefBasis
import proofs.«124500_j23922967839461_1_alg».proof.Proof.KernelBasis
import Idealize.ShloMosaic.Adequacy
import Idealize.ShloMosaic.Init

noncomputable section

namespace Cert.Proof

open Idealize.ShloMosaic Idealize.ShloMosaic.TcCoe Idealize.SL.Sem

/-- The reference runs, and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the basis function of those arguments: the
    kernel's run gives it directly; the reference's run gives the via-the-distance spelling, which on the real inputs the
    precondition grants is the same function. -/
theorem algebraic : Cert.algebraic_KernelIdeal_ReferenceIdeal := by
  intro m ρ m' ρ' hpre hagree
  refine ⟨fun c => Cert.Gaussian.basis (Cert.KernelBasis.pts m c) (Cert.KernelBasis.ctr m c) (Cert.KernelBasis.wid m c),
    Cert.KernelBasis.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hc, hs⟩ := Cert.RealInputs.of_pre _ _ _ (hpre c)
  rw [Cert.ReferenceIdeal.Read.val_main_v23_eq, Cert.RefBasis.stage_eq, (hagree c).1, (hagree c).2.1, (hagree c).2.2]
  exact Cert.Gaussian.basisViaDistance_eq_basis _ _ _ hx hc hs

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
